-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S8192 : Shape := ⟨1, ![8192]⟩
abbrev S8192x1 : Shape := ⟨2, ![8192, 1]⟩
abbrev S1024x1024 : Shape := ⟨2, ![1024, 1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192, .i32⟩
  | .hbm, ⟨2, _⟩ => ⟨S8192x1, .i32⟩
  | .hbm, ⟨3, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8192_S8192x1 : S8192.ShapeCasts S8192x1
  iota_S1024x1024_d1_w32 : S1024x1024.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  natLt_1_32 : 1 < 32
  inb_S1024x1024_S1024x1024_0_0 : ∀ a, (![0, 0] : Fin 2 → Nat) a + S1024x1024.size a ≤ S1024x1024.size a
  h_S1024x1024 : 0 < S1024x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .i32 = 32 ∨ (Rect.block (s := S8192x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192 : Shape := ⟨1, ![8192]⟩
abbrev S4096 : Shape := ⟨1, ![4096]⟩
abbrev S1x4096 : Shape := ⟨2, ![1, 4096]⟩
abbrev S8192x1 : Shape := ⟨2, ![8192, 1]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192, .i32⟩
  | .hbm, ⟨2, _⟩ => ⟨S4096, .i32⟩
  | .hbm, ⟨3, _⟩ => ⟨S1x4096, .i32⟩
  | .hbm, ⟨4, _⟩ => ⟨S8192x1, .i32⟩
  | .hbm, ⟨5, _⟩ => ⟨S8192x4096, .i32⟩
  | .hbm, ⟨6, _⟩ => ⟨S8192x4096, .i32⟩
  | .hbm, ⟨7, _⟩ => ⟨S8192x4096, .i1⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S8192_S8192x1_0 : S8192.BroadcastsInDim S8192x1 (![0] : Fin 1 → Fin S8192x1.rank)
  bcast_S1x4096_S8192x4096_0_1 : S1x4096.BroadcastsInDim S8192x4096 (![0, 1] : Fin 2 → Fin S8192x4096.rank)
  bcast_S8192x1_S8192x4096_0_1 : S8192x1.BroadcastsInDim S8192x4096 (![0, 1] : Fin 2 → Fin S8192x4096.rank)

variable [Facts₀]

class Facts : Prop extends Facts₀ where

variable [Facts]
-- ==== Proof.Spec.lean ====
/-
  The function both programs compute, and the word arithmetic that identifies their two masks.

  For a matrix `x` of 8192 rows and 4096 columns and one 32-bit word `s r` per row, entry `(r, c)` of the result is
  `x (r, c) · [c < s r]`: the column number `c` is compared, as a signed 32-bit word, with the row's threshold, and the
  outcome — the bit `1` or `0` — is read as the extended real one or zero. No law of the extended reals is used beyond
  `a = a'` → `x · a = x · a'`, so nothing here needs the entries of `x` to be finite.

  The two programs spell the mask differently. One compares the column number itself; the other works on a tile of 1024
  columns and compares `q + 1024 · b` computed in 32-bit words, `q` the column inside the tile and `b` the tile's
  number: `c = 1024 · b + q < 4096`, far below `2 ^ 32`, so the word sum is the word of `c` (`tile_col_word`). And
  one widens the comparison's bit to a word and converts it signed, the other converts the bit unsigned: the same number
  (`bit_signed_eq_unsigned`).
-/
import Idealize.ShloMosaic.PureOps.Ideal
import Idealize.ShloMosaic.Lib.ValueIdx
import Idealize.ShloMosaic.Lib.KernelVsHost

noncomputable section

namespace Cert.PrefixMask

open Idealize.ShloMosaic Idealize.ShloMosaic.ValueIdx

/-- The matrix shape, the threshold vector's shape, and the shape of the thresholds laid out as a column. -/
abbrev Mat : Shape := ⟨2, ![8192, 4096]⟩
abbrev Rows : Shape := ⟨1, ![8192]⟩
abbrev Col : Shape := ⟨2, ![8192, 1]⟩

/-- `[c < s]` as an extended real: the signed comparison of the word of `c` with the word `s`, its bit read as a number. -/
def keep (c : ℕ) (s : BitVec 32) : EReal := (((IntOp.cmpi .slt (BitVec.ofNat 32 c) s).toNat : ℝ) : EReal)

/-- The result: every entry of `x` times its row's prefix mask at that column. -/
def masked (x : FVec Ideal Mat .f32) (s : IVec Rows 32) : FVec Ideal Mat .f32 :=
  fun j => x j * keep (j 1).val (s (ix1 (j 0)))

/-- Inside tile `b` (of four) the column `q` (of 1024) is column `1024 · b + q` of the matrix, and the 32-bit sum
    `q + b · 1024` is that number's word: nothing wraps below 4096. -/
theorem tile_col_word (b q : ℕ) (hb : b < 4) (hq : q < 1024) :
    IntOp.addi (BitVec.ofNat 32 q) (Scalar.muli (BitVec.ofNat 32 b) 1024#32) = BitVec.ofNat 32 (b * 1024 + q) := by
  apply BitVec.eq_of_toNat_eq
  show ((BitVec.ofNat 32 q) + (BitVec.ofNat 32 b) * 1024#32).toNat = _
  simp only [BitVec.toNat_add, BitVec.toNat_mul, BitVec.toNat_ofNat]
  omega

/-- A comparison's bit widened to a word and converted as a signed integer is the bit converted as an unsigned one. -/
theorem bit_signed_eq_unsigned (b : BitVec 1) :
    (((b.setWidth 32).toInt : ℝ) : EReal) = ((b.toNat : ℝ) : EReal) := by
  rw [toInt_setWidth_bit]
  norm_cast

end Cert.PrefixMask

end
-- ==== Proof.Tile.lean ====
/-
  One tile of the kernel, entry by entry.

  At grid point `i` the body loads a tile of 1024 × 1024 entries of the matrix and the 1024 thresholds of the tile's
  rows (a column of words), and stores their product with the mask. Entry `(p, q)` of what it stores is the tile's
  entry `(p, q)` times `[1024 · i₁ + q < threshold of row p]`: the body's column counter is the lane number `q` plus
  the tile's first column `i₁ · 1024`, a sum of 32-bit words that does not wrap, and the comparison's bit, widened
  and converted signed, is the bit itself.
-/
import proofs.«175855_j86569360818324_1_alg».proof.Proof.Gen.KernelIdeal.Skeleton
import proofs.«175855_j86569360818324_1_alg».proof.Proof.Spec
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx Cert.PrefixMask

/-- The thresholds, cast to their own shape twice and broadcast along the lanes, read at `(p, q)`: row `p`'s word. -/
theorem thresh_lane (v : IVec S1024x1 32) (p q : Fin 1024) :
    broadcastTo S1024x1024 (shapeCast S1024x1 (shapeCast S1024x1 v shapeCasts_S1024x1_S1024x1) shapeCasts_S1024x1_S1024x1)
      broadcasts_S1024x1_S1024x1024 (ix2 p q) = v (ix2 p (0 : Fin 1)) := by
  rw [shapeCast_self, shapeCast_self]
  exact broadcastTo_apply v _ (ix2 p q) (ix2 p (0 : Fin 1)) (fun a => by
    match a with
    | ⟨0, _⟩ => rfl
    | ⟨1, _⟩ => rfl)

/-- The lane counter of a tile reads the lane number. -/
theorem lane_iota (p q : Fin 1024) :
    iota .tc S1024x1024 32 [1] iota_S1024x1024_d1_w32 (ix2 p q) = BitVec.ofNat 32 q.val :=
  iota_single_apply .tc S1024x1024 32 1 iota_S1024x1024_d1_w32 (ix2 p q)

/-- ENTRY `(p, q)` OF THE STORED TILE at grid point `i`: the loaded entry times the prefix mask of row `p` at the
    matrix column `1024 · i₁ + q`. -/
theorem stored_apply (i : grid0.Coords) (thr : Vec Ideal S1024x1 .i32) (x : Vec Ideal S1024x1024 .f32) (p q : Fin 1024) :
    k0_pay1 (F := Ideal) i thr x (ix2 p q) = x (ix2 p q) * keep ((i 1).val * 1024 + q.val) (thr (ix2 p (0 : Fin 1))) := by
  have hb : (i 1).val < 4 := (i 1).isLt
  unfold k0_pay1
  show x (ix2 p q) * ((((IntOp.cmpi .slt
        (IntOp.addi (iota .tc S1024x1024 32 [1] iota_S1024x1024_d1_w32 (ix2 p q)) (Scalar.muli (BitVec.ofNat 32 (i 1).val) 1024#32))
        (broadcastTo S1024x1024 (shapeCast S1024x1 (shapeCast S1024x1 thr shapeCasts_S1024x1_S1024x1) shapeCasts_S1024x1_S1024x1)
          broadcasts_S1024x1_S1024x1024 (ix2 p q))).setWidth 32).toInt : ℝ) : EReal) = _
  rw [thresh_lane, lane_iota, tile_col_word _ _ hb q.isLt, bit_signed_eq_unsigned]
  rfl

/-- THE STORED TILE IS A TILE OF `masked`: if the loaded tile's entry `j` is the matrix's entry `J`, the loaded threshold of
    tile row `j₀` is the threshold of matrix row `J₀`, and `J`'s column is the tile's first column plus `j₁`, then entry
    `j` of what the body stores is entry `J` of `masked`. -/
theorem stored_eq_masked (i : grid0.Coords) (thr : Vec Ideal S1024x1 .i32) (x : Vec Ideal S1024x1024 .f32)
    (X : FVec Ideal S8192x4096 .f32) (s : IVec S8192 32) (j : S1024x1024.Idx) (J : S8192x4096.Idx)
    (hx : x j = X J) (hthr : thr (ix2 (j 0) (0 : Fin 1)) = s (ix1 (J 0)))
    (hcol : (J 1).val = (i 1).val * 1024 + (j 1).val) :
    k0_pay1 (F := Ideal) i thr x j = masked X s J := by
  obtain ⟨p, q, rfl⟩ : ∃ (p q : Fin 1024), j = ix2 p q := ⟨j 0, j 1, eq_ix2 j⟩
  have hthr' : thr (ix2 p (0 : Fin 1)) = s (ix1 (J 0)) := hthr
  have hcol' : (J 1).val = (i 1).val * 1024 + q.val := hcol
  rw [stored_apply, hx, hthr']
  show X J * keep ((i 1).val * 1024 + q.val) (s (ix1 (J 0))) = X J * keep (J 1).val (s (ix1 (J 0)))
  rw [hcol']

end Cert.KernelIdeal.Tile

end
-- ==== Proof.Whole.lean ====
/-
  From tiles to the whole matrix.

  The grid has 8 × 4 points; point `t` works on the tile of rows `1024 · t₀ …` and columns `1024 · t₁ …` of the matrix,
  on the thresholds of the same rows (laid out as a column by the host before the region), and writes its tile of the
  result back. What it writes is the tile of `masked x s`: entry `(p, q)` of the stored tile is `x` at
  `(1024 · t₀ + p, 1024 · t₁ + q)` times the prefix mask of that row at that column (the tile-level lemma), and that
  is entry `(1024 · t₀ + p, 1024 · t₁ + q)` of `masked x s`. The 32 tiles cover the matrix — row `r`, column `c` lies
  in the tile of point `(r / 1024, c / 1024)` — so after the run the result array is `masked x s`.
-/
import proofs.«175855_j86569360818324_1_alg».proof.Proof.KernelIdealValueP
import proofs.«175855_j86569360818324_1_alg».proof.Proof.Tile
import proofs.«175855_j86569360818324_1_alg».proof.Proof.Spec
import Idealize.ShloMosaic.Lib.Pipeline.Value
import Idealize.ShloMosaic.Lib.StableHlo.Run

noncomputable section

namespace Cert.KernelIdeal.Whole

open Cert.KernelIdeal Cert.KernelIdeal.Gen Cert.KernelIdeal.GenP Cert.KernelIdeal.ValueP
open Idealize.ShloMosaic Idealize.ShloMosaic.TcCoe Idealize.SL.Sem Idealize.ShloMosaic.ValueIdx Idealize.ShloMosaic.StableHlo
open Cert.PrefixMask Cert.KernelIdeal.Tile
open Idealize.ShloMosaic.Pipeline (Dat)

variable (m : (ℓ : Loc nD τ sig) → Buf (Elt Ideal) ℓ) (ρ : Dev nD → PrngReg)

/-- The matrix and the thresholds as launched. -/
abbrev xarr (c : Dev nD) : FVec Ideal S8192x4096 .f32 := m ((c : Thread nD τ).loc main_arg0)
abbrev sarr (c : Dev nD) : IVec S8192 32 := m ((c : Thread nD τ).loc main_arg1)

theorem origin_zero : (![0, 0] : Fin 2 → Nat) = fun _ => 0 := funext fun a => by fin_cases a <;> rfl

/-- The thresholds as the region finds them: the host's reshape of the vector into a column, -/
theorem thresh_col (c : Dev nD) :
    (V m c main_v0 : S8192x1.Idx → BitVec 32) = shapeCast S8192x1 (sarr m c) shapeCasts_S8192_S8192x1 := by
  dsimp only [GenP.V, Gen.hostOps0]; after_results; rfl

/-- whose entry `(r, 0)` is the vector's entry `r`. -/
theorem thresh_col_apply (s : IVec S8192 32) (r : Fin 8192) :
    shapeCast S8192x1 s shapeCasts_S8192_S8192x1 (ix2 r (0 : Fin 1)) = s (ix1 r) := by
  refine shapeCast_apply s _ (ix2 r (0 : Fin 1)) (ix1 r) ?_
  rw [Shape.rowMajor_val_one, Shape.rowMajor_val_two]
  show r.val = r.val * 1 + 0
  omega

/-- The block index maps over the grid, decided: the three windows move together along the rows, the matrix windows
    also along the columns, and the thresholds' window stays in its one column. -/
theorem idx_facts : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (0 : Fin 2) = ((grid0.coords t) 0).val
    ∧ win0_2.index t (1 : Fin 2) = ((grid0.coords t) 1).val
    ∧ win0_2.index t (0 : Fin 2) ≤ 7 ∧ win0_2.index t (1 : Fin 2) ≤ 3 :=
  (by decide +kernel : ∀ t : Fin grid0.N, _)

/-- Every tile of the 8 × 4 tiling is some point's. -/
theorem idx_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- WHAT POINT `t` WRITES BACK is tile `t` of `masked x s`. -/
theorem flushed_eq (c : Dev nD) (t : Fin cfg0.N) :
    (dats m 0 c).flushed 2 t = ((cfg0.win 2).blk t).view.read (Elt Ideal) (masked (xarr m c) (sarr m c)) := by
  rw [flushed2]
  unfold out0_2
  rw [View.canon_unit_zero origin_zero]
  simp only [View.ld_unit_zero (S := S1024x1024) origin_zero, View.ld_unit_zero (S := S1024x1) origin_zero]
  obtain ⟨e0, e1, e2, e3, e4, e5, e6, e7⟩ := idx_facts t
  funext j
  show k0_pay1 (F := Ideal) (grid0.coords t) (iblk m c 1 t) (iblk m c 0 t) j
    = masked (xarr m c) (sarr m c) (((cfg0.win 2).blk t).view.emb j)
  refine stored_eq_masked (grid0.coords t) (iblk m c 1 t) (iblk m c 0 t) (xarr m c) (sarr m c) j
    (((cfg0.win 2).blk t).view.emb j) ?_ ?_ ?_
  · -- the matrix tile is read where the result tile is written
    show V m c main_arg0 (((cfg0.win 0).blk t).view.emb j) = m ((c : Thread nD τ).loc main_arg0) (((cfg0.win 2).blk t).view.emb j)
    rw [V_main_arg0]
    refine congrArg _ (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * (j 1).val = win0_2.index t (1 : Fin 2) * 1024 + 1 * (j 1).val; omega
  · -- the thresholds' tile holds the thresholds of the result tile's rows
    show V m c main_v0 (((cfg0.win 1).blk t).view.emb (ix2 (j 0) (0 : Fin 1))) = sarr m c (ix1 ((((cfg0.win 2).blk t).view.emb j) 0))
    have h1 : ((cfg0.win 1).blk t).view.emb (ix2 (j 0) (0 : Fin 1)) = ix2 ((((cfg0.win 2).blk t).view.emb j) 0) (0 : Fin 1) := by
      funext a; apply Fin.ext
      match a with
      | ⟨0, _⟩ => show win0_1.index t (0 : Fin 2) * 1024 + 1 * (j 0).val = win0_2.index t (0 : Fin 2) * 1024 + 1 * (j 0).val; omega
      | ⟨1, _⟩ => show win0_1.index t (1 : Fin 2) * 1 + 1 * 0 = 0; omega
    rw [h1, thresh_col]
    exact thresh_col_apply (sarr m c) ((((cfg0.win 2).blk t).view.emb j) 0)
  · -- the result tile's columns start at 1024 times the point's second coordinate
    show win0_2.index t (1 : Fin 2) * 1024 + 1 * (j 1).val = ((grid0.coords t) 1).val * 1024 + (j 1).val
    omega

/-- An index of the matrix is in point `t`'s tile iff each coordinate is in the tile's range on its axis. -/
theorem mem_tile (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- THE TILES COVER THE MATRIX: entry `(r, c)` lies in the tile of the point whose block is `(r / 1024, c / 1024)`. -/
theorem tiles_cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE RESULT ARRAY after the run is `masked` of the matrix and the thresholds as launched. -/
theorem final (c : Dev nD) : (dats m 0 c).arrAt 2 cfg0.N = masked (xarr m c) (sarr m c) :=
  (dats m 0 c).arrAt_eq_of_cover 2 (masked (xarr m c) (sarr m c)) (fun t _ => flushed_eq m c t) tiles_cover

/-- The run, read: every weakly fair execution ends with the result array at `masked` and the arguments unchanged. -/
theorem run : θ_run defs (onTc (τ := τ) (main (F := Ideal))) ⟨m, fun _ => 0, ρ⟩ fun r => ∀ c : Dev nD,
      r.2.mem ((c : Thread nD τ).loc main_v1) = masked (xarr m c) (sarr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefMask.lean ====
/-
  The reference, entry by entry: it lays the column numbers `0 … 4095` along every row and each row's threshold along
  its columns, compares them as signed words, converts the bit and multiplies. Read at `(r, c)` through the generated
  stage lemmas this is `x (r, c) · [c < s r]`, the specification's `masked`.
-/
import proofs.«175855_j86569360818324_1_alg».proof.Proof.Gen.ReferenceIdeal.Read
import proofs.«175855_j86569360818324_1_alg».proof.Proof.Spec

noncomputable section

namespace Cert.ReferenceIdeal.RefMask

open Cert.ReferenceIdeal Cert.ReferenceIdeal.Gen Cert.ReferenceIdeal.Read Idealize.ShloMosaic Idealize.ShloMosaic.ValueIdx Cert.PrefixMask

/-- The two broadcasts of the thresholds read entry `(r, c)` at row `r` of the vector. -/
theorem thresh_idx (i : S8192x4096.Idx) : idx_main_v2 (idx_main_v4 i) = ix1 (i 0) :=
  funext fun a => Fin.ext (by match a with | ⟨0, _⟩ => rfl)

/-- THE REFERENCE'S RESULT IS `masked`. -/
theorem result_eq (x : FVec Ideal S8192x4096 .f32) (s : IVec S8192 32) :
    val_main_v7 (F := Ideal) x s = masked x s := by
  funext i
  rw [val_main_v7_apply, val_main_v6_apply, val_main_v5_apply, val_main_v3_apply, val_main_v1_apply, val_main_v0_apply,
    val_main_v4_apply, val_main_v2_apply, thresh_idx]
  rfl

end Cert.ReferenceIdeal.RefMask

end
-- ==== Proof.lean ====
/-
  A matrix with each row cut off after a prefix: a tiled kernel against the whole-array formula.

  Both programs take a matrix `x` (8192 × 4096 floats) and one 32-bit integer `s r` per row and return
  `x (r, c) · [c < s r]`: the row's entries up to column `s r` kept, the rest set to zero. The reference lays the
  column numbers and the thresholds over the whole matrix, compares, converts the comparison's bit to a float and
  multiplies. The kernel walks the matrix in 8 × 4 tiles of 1024 × 1024 entries; in a tile it rebuilds the column
  number as the lane number plus 1024 times the tile's column (a 32-bit sum that stays below 4096, so it is the
  column's word), compares it with the tile rows' thresholds (fetched as a column the host reshaped the vector into),
  widens the bit to a word and converts that signed — the bit again — and multiplies. At the ideal instance both results
  are the one function `PrefixMask.masked x s`, entry by entry, with no arithmetic on the extended reals beyond
  multiplying equal factors: finiteness of `x` is not used.

  The kernel's result array is read off its frame run tile by tile (the tiles cover the matrix); the reference's from its
  run, stage by stage. The two word-level and ideal kernels terminate with their arguments unchanged by their frame
  runs; the reference by its run with the result dropped. The ideal pass rewrote nothing, so there is nothing to preserve.
-/
import proofs.«175855_j86569360818324_1_alg».proof.Defs
import proofs.«175855_j86569360818324_1_alg».proof.Proof.Gen.Kernel
import proofs.«175855_j86569360818324_1_alg».proof.Proof.Gen.Kernel.Skeleton
import proofs.«175855_j86569360818324_1_alg».proof.Proof.Gen.Kernel.Launch
import proofs.«175855_j86569360818324_1_alg».proof.Proof.Gen.Kernel.Points
import proofs.«175855_j86569360818324_1_alg».proof.Proof.KernelFrameP
import proofs.«175855_j86569360818324_1_alg».proof.Proof.Gen.KernelIdeal
import proofs.«175855_j86569360818324_1_alg».proof.Proof.Gen.KernelIdeal.Skeleton
import proofs.«175855_j86569360818324_1_alg».proof.Proof.Gen.KernelIdeal.Launch
import proofs.«175855_j86569360818324_1_alg».proof.Proof.Gen.KernelIdeal.Points
import proofs.«175855_j86569360818324_1_alg».proof.Proof.KernelIdealFrameP
import proofs.«175855_j86569360818324_1_alg».proof.Proof.KernelIdealValueP
import proofs.«175855_j86569360818324_1_alg».proof.Proof.Gen.ReferenceIdeal.Run
import proofs.«175855_j86569360818324_1_alg».proof.Proof.Gen.ReferenceIdeal.Read
import proofs.«175855_j86569360818324_1_alg».proof.Proof.Gen.ReferenceIdeal
import proofs.«175855_j86569360818324_1_alg».proof.Proof.Gen.Pre_finite_inputs
import proofs.«175855_j86569360818324_1_alg».proof.Proof.Spec
import proofs.«175855_j86569360818324_1_alg».proof.Proof.Tile
import proofs.«175855_j86569360818324_1_alg».proof.Proof.Whole
import proofs.«175855_j86569360818324_1_alg».proof.Proof.RefMask
import Idealize.ShloMosaic.Adequacy
import Idealize.ShloMosaic.Init

noncomputable section

namespace Cert.Proof

open Idealize.ShloMosaic Idealize.SL.Sem

/-- The word-level kernel runs and leaves its arguments as they were: its frame run. -/
theorem frame_kernel : Cert.frame_Kernel := fun m ρ _ => Cert.Kernel.GenP.frame m ρ

/-- So does the kernel read at the ideal instance. -/
theorem frame_kernelIdeal : Cert.frame_KernelIdeal := fun m ρ _ => Cert.KernelIdeal.GenP.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the matrix and the thresholds both programs end with the result array at
    `masked x s`: the kernel tile by tile, the reference stage by stage. -/
theorem algebraic : Cert.algebraic_KernelIdeal_ReferenceIdeal := by
  intro m ρ m' ρ' _ hagree
  refine ⟨fun c => Cert.PrefixMask.masked (Cert.KernelIdeal.Whole.xarr m c) (Cert.KernelIdeal.Whole.sarr m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefMask.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
